-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x115 : S_.BroadcastsInDim S768x115 (![] : Fin 0 → Fin S768x115.rank)
  reducesTo_S768x115_S_d0_1 : S768x115.ReducesTo [0, 1] S_
  bcast_S_S115 : S_.BroadcastsInDim S115 (![] : Fin 0 → Fin S115.rank)
  reducesTo_S115_S_d0 : S115.ReducesTo [0] S_
  bcast_S_S768x478 : S_.BroadcastsInDim S768x478 (![] : Fin 0 → Fin S768x478.rank)
  reducesTo_S768x478_S_d0_1 : S768x478.ReducesTo [0, 1] S_
  bcast_S_S478 : S_.BroadcastsInDim S478 (![] : Fin 0 → Fin S478.rank)
  reducesTo_S478_S_d0 : S478.ReducesTo [0] S_

variable [Facts]

def fn_part1 {F : FTy → Type} [FloatOps F] (main_arg4 : FVec F S478 .f32) (main_v13 : IVec S_ 1) (main_v16 : IVec S768x478 1) : IVec S_ 1 :=
  let main_c_5 : IVec S_ 1 := constantI S_ 1 1#1
  let main_v17 : IVec S_ 1 := (fun x v => Host.reduce IntOp.andi x v reducesTo_S768x478_S_d0_1 h_S_) main_v16 main_c_5
  let main_v18 : IVec S_ 1 := andi main_v13 main_v17
  let main_v19 : FVec F S478 .f32 := Host.absf main_arg4
  let main_cst_6 : FVec F S_ .f32 := constant S_ .f32 0x7F800000#32
  let main_v20 : FVec F S478 .f32 := broadcastInDim S478 ![] bcast_S_S478 main_cst_6
  let main_v21 : IVec S478 1 := cmpf .olt main_v19 main_v20
  let main_c_7 : IVec S_ 1 := constantI S_ 1 1#1
  let main_v22 : IVec S_ 1 := (fun x v => Host.reduce IntOp.andi x v reducesTo_S478_S_d0 h_S_) main_v21 main_c_7
  let main_v23 : IVec S_ 1 := andi main_v18 main_v22
  main_v23

def fn {F : FTy → Type} [FloatOps F] (main_arg0 : FVec F S16384x768 .f32) (main_arg1 : FVec F S768x115 .f32) (main_arg2 : FVec F S115 .f32) (main_arg3 : FVec F S768x478 .f32) (main_arg4 : FVec F S478 .f32) (main_arg5 : IVec S115 1) (main_arg6 : IVec S478 1) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x115 .f32 := Host.absf main_arg1
  let main_cst_0 : FVec F S_ .f32 := constant S_ .f32 0x7F800000#32
  let main_v5 : FVec F S768x115 .f32 := broadcastInDim S768x115 ![] bcast_S_S768x115 main_cst_0
  let main_v6 : IVec S768x115 1 := cmpf .olt main_v4 main_v5
  let main_c_1 : IVec S_ 1 := constantI S_ 1 1#1
  let main_v7 : IVec S_ 1 := (fun x v => Host.reduce IntOp.andi x v reducesTo_S768x115_S_d0_1 h_S_) main_v6 main_c_1
  let main_v8 : IVec S_ 1 := andi main_v3 main_v7
  let main_v9 : FVec F S115 .f32 := Host.absf main_arg2
  let main_cst_2 : FVec F S_ .f32 := constant S_ .f32 0x7F800000#32
  let main_v10 : FVec F S115 .f32 := broadcastInDim S115 ![] bcast_S_S115 main_cst_2
  let main_v11 : IVec S115 1 := cmpf .olt main_v9 main_v10
  let main_c_3 : IVec S_ 1 := constantI S_ 1 1#1
  let main_v12 : IVec S_ 1 := (fun x v => Host.reduce IntOp.andi x v reducesTo_S115_S_d0 h_S_) main_v11 main_c_3
  let main_v13 : IVec S_ 1 := andi main_v8 main_v12
  let main_v14 : FVec F S768x478 .f32 := Host.absf main_arg3
  let main_cst_4 : FVec F S_ .f32 := constant S_ .f32 0x7F800000#32
  let main_v15 : FVec F S768x478 .f32 := broadcastInDim S768x478 ![] bcast_S_S768x478 main_cst_4
  let main_v16 : IVec S768x478 1 := cmpf .olt main_v14 main_v15
  fn_part1 (F := F) main_arg4 main_v13 main_v16
-- ==== Kernel.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S115x768 : Shape := ⟨2, ![115, 768]⟩
abbrev S478x768 : Shape := ⟨2, ![478, 768]⟩
abbrev S593 : Shape := ⟨1, ![593]⟩
abbrev S_ : Shape := ⟨0, ![]⟩
abbrev S1x593 : Shape := ⟨2, ![1, 593]⟩
abbrev S2x593 : Shape := ⟨2, ![2, 593]⟩
abbrev S115x16384 : Shape := ⟨2, ![115, 16384]⟩
abbrev S478x16384 : Shape := ⟨2, ![478, 16384]⟩
abbrev S16384x115 : Shape := ⟨2, ![16384, 115]⟩
abbrev S16384x478 : Shape := ⟨2, ![16384, 478]⟩
abbrev S4096x768 : Shape := ⟨2, ![4096, 768]⟩
abbrev S115x4096 : Shape := ⟨2, ![115, 4096]⟩
abbrev S478x4096 : Shape := ⟨2, ![478, 4096]⟩
abbrev S593x2 : Shape := ⟨2, ![593, 2]⟩
abbrev S115x2 : Shape := ⟨2, ![115, 2]⟩
abbrev S115x1 : Shape := ⟨2, ![115, 1]⟩
abbrev S478x2 : Shape := ⟨2, ![478, 2]⟩
abbrev S478x1 : Shape := ⟨2, ![478, 1]⟩

abbrev nBuf : Space → Nat
  | .hbm => 23
  | .vmem => 9
  | .smem => 0
  | _ => 0

abbrev bufTy : (tb : Table) → Fin (tcTables nBuf tb) → BufTy
  | .hbm, ⟨0, _⟩ => ⟨S16384x768, .f32⟩
  | .hbm, ⟨1, _⟩ => ⟨S768x115, .f32⟩
  | .hbm, ⟨2, _⟩ => ⟨S115, .f32⟩
  | .hbm, ⟨3, _⟩ => ⟨S768x478, .f32⟩
  | .hbm, ⟨4, _⟩ => ⟨S478, .f32⟩
  | .hbm, ⟨5, _⟩ => ⟨S115, .i1⟩
  | .hbm, ⟨6, _⟩ => ⟨S478, .i1⟩
  | .hbm, ⟨7, _⟩ => ⟨S115x768, .f32⟩
  | .hbm, ⟨8, _⟩ => ⟨S478x768, .f32⟩
  | .hbm, ⟨9, _⟩ => ⟨S593, .i1⟩
  | .hbm, ⟨10, _⟩ => ⟨S593, .f32⟩
  | .hbm, ⟨11, _⟩ => ⟨S593, .f32⟩
  | .hbm, ⟨12, _⟩ => ⟨S_, .f32⟩
  | .hbm, ⟨13, _⟩ => ⟨S_, .f32⟩
  | .hbm, ⟨14, _⟩ => ⟨S593, .f32⟩
  | .hbm, ⟨15, _⟩ => ⟨S593, .f32⟩
  | .hbm, ⟨16, _⟩ => ⟨S1x593, .f32⟩
  | .hbm, ⟨17, _⟩ => ⟨S1x593, .f32⟩
  | .hbm, ⟨18, _⟩ => ⟨S2x593, .f32⟩
  | .hbm, ⟨19, _⟩ => ⟨S115x16384, .f32⟩
  | .hbm, ⟨20, _⟩ => ⟨S478x16384, .f32⟩
  | .hbm, ⟨21, _⟩ => ⟨S16384x115, .f32⟩
  | .hbm, ⟨22, _⟩ => ⟨S16384x478, .f32⟩
  | .local _ .vmem, ⟨0, _⟩ => ⟨S4096x768, .f32⟩
  | .local _ .vmem, ⟨1, _⟩ => ⟨S4096x768, .f32⟩
  | .local _ .vmem, ⟨2, _⟩ => ⟨S115x768, .f32⟩
  | .local _ .vmem, ⟨3, _⟩ => ⟨S478x768, .f32⟩
  | .local _ .vmem, ⟨4, _⟩ => ⟨S2x593, .f32⟩
  | .local _ .vmem, ⟨5, _⟩ => ⟨S115x4096, .f32⟩
  | .local _ .vmem, ⟨6, _⟩ => ⟨S115x4096, .f32⟩
  | .local _ .vmem, ⟨7, _⟩ => ⟨S478x4096, .f32⟩
  | .local _ .vmem, ⟨8, _⟩ => ⟨S478x4096, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9_0 : Ref sig .tc := ⟨.hbm, 19, rfl⟩
abbrev main_call0_v9_1 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S115x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S478x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x593 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S115x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S478x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S768x115_S115x768_1_0 : S768x115.Transposes [1, 0] S115x768
  transposes_S768x478_S478x768_1_0 : S768x478.Transposes [1, 0] S478x768
  concatenates_S115_S478_S593_d0 : Shape.Concatenates [S115, S478] S593 0
  bcast_S_S593 : S_.BroadcastsInDim S593 (![] : Fin 0 → Fin S593.rank)
  bcast_S593_S1x593_1 : S593.BroadcastsInDim S1x593 (![1] : Fin 1 → Fin S1x593.rank)
  concatenates_S1x593_S1x593_S2x593_d0 : Shape.Concatenates [S1x593, S1x593] S2x593 0
  transposes_S115x16384_S16384x115_1_0 : S115x16384.Transposes [1, 0] S16384x115
  transposes_S478x16384_S16384x478_1_0 : S478x16384.Transposes [1, 0] S16384x478
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  inb_S2x593_S2x593_0_0 : ∀ a, (![0, 0] : Fin 2 → Nat) a + S2x593.size a ≤ S2x593.size a
  h_S2x593 : 0 < S2x593.numel
  shapeCasts_S2x593_S2x593 : S2x593.ShapeCasts S2x593
  transposes_S2x593_p1_0_S593x2 : S2x593.Transposes [1, 0] S593x2
  slices_S593x2_o0_0_S115x2 : S593x2.Slices ![0, 0] S115x2
  inb_S115x768_S115x768_0_0 : ∀ a, (![0, 0] : Fin 2 → Nat) a + S115x768.size a ≤ S115x768.size a
  h_S115x768 : 0 < S115x768.numel
  shapeCasts_S115x768_S115x768 : S115x768.ShapeCasts S115x768
  slices_S115x2_o0_0_S115x1 : S115x2.Slices ![0, 0] S115x1
  broadcasts_S115x1_S115x4096 : S115x1.Broadcasts S115x4096
  slices_S115x2_o0_1_S115x1 : S115x2.Slices ![0, 1] S115x1
  inb_S115x4096_S115x4096_0_0 : ∀ a, (![0, 0] : Fin 2 → Nat) a + S115x4096.size a ≤ S115x4096.size a
  h_S115x4096 : 0 < S115x4096.numel
  slices_S593x2_o115_0_S478x2 : S593x2.Slices ![115, 0] S478x2
  inb_S478x768_S478x768_0_0 : ∀ a, (![0, 0] : Fin 2 → Nat) a + S478x768.size a ≤ S478x768.size a
  h_S478x768 : 0 < S478x768.numel
  shapeCasts_S478x768_S478x768 : S478x768.ShapeCasts S478x768
  slices_S478x2_o0_0_S478x1 : S478x2.Slices ![0, 0] S478x1
  broadcasts_S478x1_S478x4096 : S478x1.Broadcasts S478x4096
  slices_S478x2_o0_1_S478x1 : S478x2.Slices ![0, 1] S478x1
  inb_S478x4096_S478x4096_0_0 : ∀ a, (![0, 0] : Fin 2 → Nat) a + S478x4096.size a ≤ S478x4096.size a
  h_S478x4096 : 0 < S478x4096.numel
  dot_S115x768_S4096x768_S115x4096_1_1_0_0_n_n_wf : DotDims.WF S115x768 S4096x768 S115x4096 [1] [1] [0] [0] [] []
  dot_S478x768_S4096x768_S478x4096_1_1_0_0_n_n_wf : DotDims.WF S478x768 S4096x768 S478x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S16384x768.size a
  hwx0_0 : ∀ i : grid0.Coords, EltTy.bits .f32 = 32 ∨ (Rect.block (s := S16384x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S115x768.size a ≤ S115x768.size a
  hwx0_1 : ∀ i : grid0.Coords, EltTy.bits .f32 = 32 ∨ (Rect.block (s := S115x768) S115x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S478x768.size a ≤ S478x768.size a
  hwx0_2 : ∀ i : grid0.Coords, EltTy.bits .f32 = 32 ∨ (Rect.block (s := S478x768) S478x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x593.size a ≤ S2x593.size a
  hwx0_3 : ∀ i : grid0.Coords, EltTy.bits .f32 = 32 ∨ (Rect.block (s := S2x593) S2x593.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S115x4096.size a ≤ S115x16384.size a
  hwx0_4 : ∀ i : grid0.Coords, EltTy.bits .f32 = 32 ∨ (Rect.block (s := S115x16384) S115x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S478x4096.size a ≤ S478x16384.size a
  hwx0_5 : ∀ i : grid0.Coords, EltTy.bits .f32 = 32 ∨ (Rect.block (s := S478x16384) S478x4096.size (cc0_transform_5 i) (hinb0_5 i)).WholeWords (EltTy.packing .f32)

variable [Facts₀]

def dot_S115x768_S4096x768_S115x4096_1_1_0_0_n_n : DotDims S115x768 S4096x768 S115x4096 where
  lhsContracting := [1]
  rhsContracting := [1]
  lhsNonContracting := [0]
  rhsNonContracting := [0]
  lhsBatch := []
  rhsBatch := []
  wf := dot_S115x768_S4096x768_S115x4096_1_1_0_0_n_n_wf
def dot_S478x768_S4096x768_S478x4096_1_1_0_0_n_n : DotDims S478x768 S4096x768 S478x4096 where
  lhsContracting := [1]
  rhsContracting := [1]
  lhsNonContracting := [0]
  rhsNonContracting := [0]
  lhsBatch := []
  rhsBatch := []
  wf := dot_S478x768_S4096x768_S478x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S115x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S478x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S2x593.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9_0) S115x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9_1) S478x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S16384x115 : Shape := ⟨2, ![16384, 115]⟩
abbrev S1x115 : Shape := ⟨2, ![1, 115]⟩
abbrev S16384x478 : Shape := ⟨2, ![16384, 478]⟩
abbrev S1x478 : Shape := ⟨2, ![1, 478]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x115, .f32⟩
  | .hbm, ⟨2, _⟩ => ⟨S115, .f32⟩
  | .hbm, ⟨3, _⟩ => ⟨S768x478, .f32⟩
  | .hbm, ⟨4, _⟩ => ⟨S478, .f32⟩
  | .hbm, ⟨5, _⟩ => ⟨S115, .i1⟩
  | .hbm, ⟨6, _⟩ => ⟨S478, .i1⟩
  | .hbm, ⟨7, _⟩ => ⟨S16384x115, .f32⟩
  | .hbm, ⟨8, _⟩ => ⟨S1x115, .f32⟩
  | .hbm, ⟨9, _⟩ => ⟨S16384x115, .f32⟩
  | .hbm, ⟨10, _⟩ => ⟨S16384x115, .f32⟩
  | .hbm, ⟨11, _⟩ => ⟨S16384x478, .f32⟩
  | .hbm, ⟨12, _⟩ => ⟨S1x478, .f32⟩
  | .hbm, ⟨13, _⟩ => ⟨S16384x478, .f32⟩
  | .hbm, ⟨14, _⟩ => ⟨S16384x478, .f32⟩
  | .hbm, ⟨15, _⟩ => ⟨S1x115, .i1⟩
  | .hbm, ⟨16, _⟩ => ⟨S_, .f32⟩
  | .hbm, ⟨17, _⟩ => ⟨S_, .f32⟩
  | .hbm, ⟨18, _⟩ => ⟨S16384x115, .i1⟩
  | .hbm, ⟨19, _⟩ => ⟨S16384x115, .f32⟩
  | .hbm, ⟨20, _⟩ => ⟨S16384x115, .f32⟩
  | .hbm, ⟨21, _⟩ => ⟨S1x478, .i1⟩
  | .hbm, ⟨22, _⟩ => ⟨S_, .f32⟩
  | .hbm, ⟨23, _⟩ => ⟨S_, .f32⟩
  | .hbm, ⟨24, _⟩ => ⟨S16384x478, .i1⟩
  | .hbm, ⟨25, _⟩ => ⟨S16384x478, .f32⟩
  | .hbm, ⟨26, _⟩ => ⟨S16384x478, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  bcast_S115_S1x115_1 : S115.BroadcastsInDim S1x115 (![1] : Fin 1 → Fin S1x115.rank)
  bcast_S1x115_S16384x115_0_1 : S1x115.BroadcastsInDim S16384x115 (![0, 1] : Fin 2 → Fin S16384x115.rank)
  bcast_S478_S1x478_1 : S478.BroadcastsInDim S1x478 (![1] : Fin 1 → Fin S1x478.rank)
  bcast_S1x478_S16384x478_0_1 : S1x478.BroadcastsInDim S16384x478 (![0, 1] : Fin 2 → Fin S16384x478.rank)
  bcast_S_S16384x115 : S_.BroadcastsInDim S16384x115 (![] : Fin 0 → Fin S16384x115.rank)
  bcast_S_S16384x478 : S_.BroadcastsInDim S16384x478 (![] : Fin 0 → Fin S16384x478.rank)
  dot_S16384x768_S768x115_S16384x115_1_0_0_1_n_n_wf : DotDims.WF S16384x768 S768x115 S16384x115 [1] [0] [0] [1] [] []
  dot_S16384x768_S768x478_S16384x478_1_0_0_1_n_n_wf : DotDims.WF S16384x768 S768x478 S16384x478 [1] [0] [0] [1] [] []

variable [Facts₀]

def dot_S16384x768_S768x115_S16384x115_1_0_0_1_n_n : DotDims S16384x768 S768x115 S16384x115 where
  lhsContracting := [1]
  rhsContracting := [0]
  lhsNonContracting := [0]
  rhsNonContracting := [1]
  lhsBatch := []
  rhsBatch := []
  wf := dot_S16384x768_S768x115_S16384x115_1_0_0_1_n_n_wf
def dot_S16384x768_S768x478_S16384x478_1_0_0_1_n_n : DotDims S16384x768 S768x478 S16384x478 where
  lhsContracting := [1]
  rhsContracting := [0]
  lhsNonContracting := [0]
  rhsNonContracting := [1]
  lhsBatch := []
  rhsBatch := []
  wf := dot_S16384x768_S768x478_S16384x478_1_0_0_1_n_n_wf

class Facts : Prop extends Facts₀ where

variable [Facts]
-- ==== Proof.VerbStored.lean ====
/-
  The verb head's stored value at one entry.  At a grid point the body holds the point's 4096 rows of the features
  `X` (4096 × 768), the whole transposed verb weights `Wt` (115 × 768) and the packed operand `P` (2 × 593: row 0
  the class mask as numbers, row 1 the bias where the class is seen and the mask value elsewhere).  It transposes
  `P`, cuts the verb half (classes 0 … 114) and its two columns, and stores, for class `p` and row `q` of the block,

      (∑ₖ Wt[p, k] · X[q, k]) · P[0, p] + P[1, p].

  The matrix product into the zero splat is the plain sum over the contracted coordinate; the narrowing of both
  operands to bf16 is the identity on extended reals.
-/
import proofs.«115485_g46634754900585_cont_8to1_c_1152_26_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.VerbHead

open Cert.KernelIdeal Cert.KernelIdeal.Gen Idealize.ShloMosaic Idealize.ShloMosaic.TcCoe Idealize.ShloMosaic.ValueIdx

/-! ## The product's operand indices -/

theorem lhs_ax0 (i : S115x4096.Idx) (q : dot_S115x768_S4096x768_S115x4096_1_1_0_0_n_n.contr.Idx) :
    (dot_S115x768_S4096x768_S115x4096_1_1_0_0_n_n.lhsIdx i q 0).val = (i 0).val := by
  unfold DotDims.lhsIdx
  rw [dif_neg (show ¬(0 : Fin S115x768.rank) ∈ dot_S115x768_S4096x768_S115x4096_1_1_0_0_n_n.lhsBatch by decide), dif_pos (show (0 : Fin S115x768.rank) ∈ dot_S115x768_S4096x768_S115x4096_1_1_0_0_n_n.lhsNonContracting by decide)]
  rfl
theorem lhs_ax1 (i : S115x4096.Idx) (q : dot_S115x768_S4096x768_S115x4096_1_1_0_0_n_n.contr.Idx) :
    (dot_S115x768_S4096x768_S115x4096_1_1_0_0_n_n.lhsIdx i q 1).val = (q ⟨0, by decide⟩).val :=
  dot_S115x768_S4096x768_S115x4096_1_1_0_0_n_n.lhsIdx_val_of_single rfl i q
theorem rhs_ax0 (i : S115x4096.Idx) (q : dot_S115x768_S4096x768_S115x4096_1_1_0_0_n_n.contr.Idx) :
    (dot_S115x768_S4096x768_S115x4096_1_1_0_0_n_n.rhsIdx i q 0).val = (i 1).val := by
  unfold DotDims.rhsIdx
  rw [dif_neg (show ¬(0 : Fin S4096x768.rank) ∈ dot_S115x768_S4096x768_S115x4096_1_1_0_0_n_n.rhsBatch by decide), dif_pos (show (0 : Fin S4096x768.rank) ∈ dot_S115x768_S4096x768_S115x4096_1_1_0_0_n_n.rhsNonContracting by decide)]
  rfl
theorem rhs_ax1 (i : S115x4096.Idx) (q : dot_S115x768_S4096x768_S115x4096_1_1_0_0_n_n.contr.Idx) :
    (dot_S115x768_S4096x768_S115x4096_1_1_0_0_n_n.rhsIdx i q 1).val = (q ⟨0, by decide⟩).val :=
  dot_S115x768_S4096x768_S115x4096_1_1_0_0_n_n.rhsIdx_val_of_single rfl i q

/-- Entry (class, row) of the product reads row `class` of the weights … -/
abbrev wIdx (i : S115x4096.Idx) (k : Fin 768) : S115x768.Idx := fun a => match a with
  | ⟨0, _⟩ => ⟨(i 0).val, (i 0).isLt⟩
  | ⟨1, _⟩ => ⟨k.val, k.isLt⟩
/-- … against row `row` of the features block. -/
abbrev xIdx (i : S115x4096.Idx) (k : Fin 768) : S4096x768.Idx := fun a => match a with
  | ⟨0, _⟩ => ⟨(i 1).val, (i 1).isLt⟩
  | ⟨1, _⟩ => ⟨k.val, k.isLt⟩

/-- The transposed-right-operand product into the zero splat, at an entry: the sum over the 768 contracted
    coordinates of weight times feature. -/
theorem product_apply (A : FVec Ideal S115x768 .bf16) (B : FVec Ideal S4096x768 .bf16) (i : S115x4096.Idx) :
    matmul dot_S115x768_S4096x768_S115x4096_1_1_0_0_n_n none A B (constant S115x4096 .f32 0x00000000#32) i
      = ∑ k : Fin 768, A (wIdx i k) * B (xIdx i k) := by
  simp only [matmul]
  rw [Ideal.matmul_constant_zero_apply, ← Equiv.sum_comp (contrEquiv1 dot_S115x768_S4096x768_S115x4096_1_1_0_0_n_n 768 rfl rfl).symm]
  refine Finset.sum_congr rfl fun k _ => ?_
  have hk := contrEquiv1_symm_val dot_S115x768_S4096x768_S115x4096_1_1_0_0_n_n 768 rfl rfl k
  have el : dot_S115x768_S4096x768_S115x4096_1_1_0_0_n_n.lhsIdx i ((contrEquiv1 dot_S115x768_S4096x768_S115x4096_1_1_0_0_n_n 768 rfl rfl).symm k) = wIdx i k := funext fun a => Fin.ext (by
    match a with
    | ⟨0, _⟩ => exact lhs_ax0 _ _
    | ⟨1, _⟩ => exact (lhs_ax1 _ _).trans hk)
  have er : dot_S115x768_S4096x768_S115x4096_1_1_0_0_n_n.rhsIdx i ((contrEquiv1 dot_S115x768_S4096x768_S115x4096_1_1_0_0_n_n 768 rfl rfl).symm k) = xIdx i k := funext fun a => Fin.ext (by
    match a with
    | ⟨0, _⟩ => exact rhs_ax0 _ _
    | ⟨1, _⟩ => exact (rhs_ax1 _ _).trans hk)
  rw [el, er]

/-! ## The packed operand: transposed, the verb half, one column -/

/-- Row `p`, column `u` of the verb half of the transposed packed operand is `P[u, p]`. -/
theorem packed_apply (x3 : Vec Ideal S2x593 .f32) (p : Fin 115) (u : Fin 2) :
    extractStridedSlice S115x2 ![0, 0] (k0_pay2 (F := Ideal) x3) slices_S593x2_o0_0_S115x2 (ix2 p u)
      = x3 (ix2 u (⟨p.val, by omega⟩ : Fin 593)) := by
  refine (extractStridedSlice_apply _ _ _ (ix2 p u) (ix2 (⟨p.val, by omega⟩ : Fin 593) u) (fun a => match a with
    | ⟨0, _⟩ => by show p.val = 0 + p.val; omega
    | ⟨1, _⟩ => by show u.val = 0 + u.val; omega)).trans ?_
  unfold k0_pay2
  rw [shapeCast_self]
  exact transpose_apply _ _ _ (ix2 (⟨p.val, by omega⟩ : Fin 593) u) (ix2 u (⟨p.val, by omega⟩ : Fin 593)) (fun b => match b with
    | ⟨0, _⟩ => rfl
    | ⟨1, _⟩ => rfl)

/-- Column `u` of a 115 × 2 array, spread along 4096 lanes, read at (p, q): the array at (p, u). -/
theorem column_apply (v : FVec Ideal S115x2 .f32) (p : Fin 115) (q : Fin 4096) :
    broadcastTo S115x4096 (extractStridedSlice S115x1 ![0, 0] v slices_S115x2_o0_0_S115x1) broadcasts_S115x1_S115x4096 (ix2 p q) = v (ix2 p (0 : Fin 2))
    ∧ broadcastTo S115x4096 (extractStridedSlice S115x1 ![0, 1] v slices_S115x2_o0_1_S115x1) broadcasts_S115x1_S115x4096 (ix2 p q) = v (ix2 p (1 : Fin 2)) := by
  constructor
  · refine (broadcastTo_apply _ _ (ix2 p q) (ix2 p (0 : Fin 1)) (fun a => match a with
      | ⟨0, _⟩ => by show p.val = if (115 : Nat) = 1 then 0 else p.val; rw [if_neg (by decide)]
      | ⟨1, _⟩ => by show 0 = if (1 : Nat) = 1 then 0 else q.val; rw [if_pos rfl])).trans ?_
    exact extractStridedSlice_apply _ _ _ (ix2 p (0 : Fin 1)) (ix2 p (0 : Fin 2)) (fun a => match a with
      | ⟨0, _⟩ => by show p.val = 0 + p.val; omega
      | ⟨1, _⟩ => by show 0 = 0 + 0; rfl)
  · refine (broadcastTo_apply _ _ (ix2 p q) (ix2 p (0 : Fin 1)) (fun a => match a with
      | ⟨0, _⟩ => by show p.val = if (115 : Nat) = 1 then 0 else p.val; rw [if_neg (by decide)]
      | ⟨1, _⟩ => by show 0 = if (1 : Nat) = 1 then 0 else q.val; rw [if_pos rfl])).trans ?_
    exact extractStridedSlice_apply _ _ _ (ix2 p (0 : Fin 1)) (ix2 p (1 : Fin 2)) (fun a => match a with
      | ⟨0, _⟩ => by show p.val = 0 + p.val; omega
      | ⟨1, _⟩ => by show 1 = 1 + 0; rfl)

/-! ## The stored value at an entry -/

/-- What the body stores in the verb output block, at class `p` and block row `q`. -/
theorem stored_apply (x0 : Vec Ideal S4096x768 .f32) (x3 : Vec Ideal S2x593 .f32) (x1 : Vec Ideal S115x768 .f32)
    (p : Fin 115) (q : Fin 4096) :
    k0_pay3 (F := Ideal) x0 x3 x1 (ix2 p q)
      = (∑ k : Fin 768, x1 (ix2 p k) * x0 (ix2 q k)) * x3 (ix2 (0 : Fin 2) (⟨p.val, by omega⟩ : Fin 593))
        + x3 (ix2 (1 : Fin 2) (⟨p.val, by omega⟩ : Fin 593)) := by
  unfold k0_pay3
  refine (addf_apply _ _ _).trans ?_
  refine congrArg₂ (· + ·) ((mulf_apply _ _ _).trans (congrArg₂ (· * ·) ?_ ?_)) ?_
  · refine (product_apply _ _ (ix2 p q)).trans ?_
    unfold k0_pay1
    rw [shapeCast_self]
    refine Finset.sum_congr rfl fun k _ => ?_
    have ew : wIdx (ix2 p q) k = ix2 p k := funext fun a => match a with
      | ⟨0, _⟩ => rfl
      | ⟨1, _⟩ => rfl
    have ex : xIdx (ix2 p q) k = ix2 q k := funext fun a => match a with
      | ⟨0, _⟩ => rfl
      | ⟨1, _⟩ => rfl
    show x1 (wIdx (ix2 p q) k) * x0 (xIdx (ix2 p q) k) = _
    rw [ew, ex]
  · exact ((column_apply _ p q).1).trans (packed_apply x3 p 0)
  · exact ((column_apply _ p q).2).trans (packed_apply x3 p 1)

end Cert.KernelIdeal.VerbHead

end
-- ==== Proof.Blocks.lean ====
/-
  Where each window's block sits in its array.  The grid has four points.  At point `t` the features window holds
  rows `4096·t … 4096·t + 4095` of the features (all 768 columns); the two weight windows and the packed operand's
  window hold their whole arrays at every point; the two output windows hold columns `4096·t … 4096·t + 4095` of
  the transposed results (all classes).  An element of a block sits in the array, on each axis, at the block index
  times the block's extent plus its own coordinate.
-/
import proofs.«115485_g46634754900585_cont_8to1_c_1152_26_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem

theorem hz : (![0, 0] : Fin 2 → Nat) = fun _ => 0 := funext fun a => by fin_cases a <;> rfl

/-- The printed index maps over the grid: the features move down the rows with the point, the outputs along the
    columns, the rest stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- A point's number is below four. -/
theorem point_lt (t : Fin cfg0.N) : t.val < 4 :=
  Nat.lt_of_lt_of_eq t.isLt (show cfg0.N = 4 from N_0)

variable (m : (ℓ : Loc nD τ sig) → Buf (Elt Ideal) ℓ)

/-- Row `x 0` of the features block at point `t` is row `4096·t + x 0` of the features. -/
theorem feats_apply (c : Dev nD) (t : Fin cfg0.N) (x : S4096x768.Idx) (k : S16384x768.Idx)
    (hk0 : (k 0).val = t.val * 4096 + (x 0).val) (hk1 : (k 1).val = (x 1).val) :
    (iblk m c 0 t : Vec Ideal S4096x768 .f32) x = (V m c main_arg0 : S16384x768.Idx → EReal) k := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * (x 0).val = (k 0).val; rw [e0, hk0]; omega
  | ⟨1, _⟩ => show win0_0.index t (1 : Fin 2) * 768 + 1 * (x 1).val = (k 1).val; rw [e1, hk1]; omega

/-- The verb weights' block is the whole transposed array. -/
theorem verbT_apply (c : Dev nD) (t : Fin cfg0.N) (x : S115x768.Idx) :
    (iblk m c 1 t : Vec Ideal S115x768 .f32) x = (V m c main_call0_v0 : S115x768.Idx → EReal) x := by
  obtain ⟨-, -, e0, e1, -⟩ := idx_facts t
  unfold iblk
  rw [View.read_apply]
  show V m c main_call0_v0 _ = V m c main_call0_v0 _
  refine congrArg (V m c main_call0_v0) (funext fun a => Fin.ext ?_)
  match a with
  | ⟨0, _⟩ => show win0_1.index t (0 : Fin 2) * 115 + 1 * (x 0).val = (x 0).val; rw [e0]; omega
  | ⟨1, _⟩ => show win0_1.index t (1 : Fin 2) * 768 + 1 * (x 1).val = (x 1).val; rw [e1]; omega

/-- The noun weights' block is the whole transposed array. -/
theorem nounT_apply (c : Dev nD) (t : Fin cfg0.N) (x : S478x768.Idx) :
    (iblk m c 2 t : Vec Ideal S478x768 .f32) x = (V m c main_call0_v1 : S478x768.Idx → EReal) x := by
  obtain ⟨-, -, -, -, e0, e1, -⟩ := idx_facts t
  unfold iblk
  rw [View.read_apply]
  show V m c main_call0_v1 _ = V m c main_call0_v1 _
  refine congrArg (V m c main_call0_v1) (funext fun a => Fin.ext ?_)
  match a with
  | ⟨0, _⟩ => show win0_2.index t (0 : Fin 2) * 478 + 1 * (x 0).val = (x 0).val; rw [e0]; omega
  | ⟨1, _⟩ => show win0_2.index t (1 : Fin 2) * 768 + 1 * (x 1).val = (x 1).val; rw [e1]; omega

/-- The packed operand's block is the whole array. -/
theorem packed_apply (c : Dev nD) (t : Fin cfg0.N) (x : S2x593.Idx) :
    (iblk m c 3 t : Vec Ideal S2x593 .f32) x = (V m c main_call0_v8 : S2x593.Idx → EReal) x := by
  obtain ⟨-, -, -, -, -, -, e0, e1, -⟩ := idx_facts t
  unfold iblk
  rw [View.read_apply]
  show V m c main_call0_v8 _ = V m c main_call0_v8 _
  refine congrArg (V m c main_call0_v8) (funext fun a => Fin.ext ?_)
  match a with
  | ⟨0, _⟩ => show win0_3.index t (0 : Fin 2) * 2 + 1 * (x 0).val = (x 0).val; rw [e0]; omega
  | ⟨1, _⟩ => show win0_3.index t (1 : Fin 2) * 593 + 1 * (x 1).val = (x 1).val; rw [e1]; omega

end Cert.KernelIdeal.Blocks

end
-- ==== Proof.VerbArray.lean ====
/-
  The verb output array after the region.  Write `X` for the features (16384 × 768), `Wt` for the transposed verb
  weights (115 × 768) and `Pk` for the packed operand (2 × 593), as the region finds them.  The array (115 × 16384)
  ends holding, at class `p` and row `r`,

      entry p r = (∑ₖ Wt[p, k] · X[r, k]) · Pk[0, p] + Pk[1, p].

  Point `t` writes back columns `4096·t … 4096·t + 4095`: its stored block at (p, q) is the formula above with the
  block's rows of `X`, that is `entry p (4096·t + q)`.  The four blocks tile the columns, so the whole array is
  `entry`.
-/
import proofs.«115485_g46634754900585_cont_8to1_c_1152_26_alg».proof.Proof.Gen.KernelIdeal.Frame
import proofs.«115485_g46634754900585_cont_8to1_c_1152_26_alg».proof.Proof.VerbStored
import proofs.«115485_g46634754900585_cont_8to1_c_1152_26_alg».proof.Proof.Blocks
import Idealize.ShloMosaic.Lib.Pipeline.Value
import Idealize.ShloMosaic.Lib.ValueIdx

noncomputable section

open scoped BigOperators

namespace Cert.KernelIdeal.VerbHead

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Blocks (hz idx_facts point_lt)

/-- One entry of the transposed verb result. -/
def entry (X : S16384x768.Idx → EReal) (Wt : S115x768.Idx → EReal) (Pk : S2x593.Idx → EReal) (p : Fin 115) (r : Fin 16384) : EReal :=
  (∑ k : Fin 768, Wt (ix2 p k) * X (ix2 r k)) * Pk (ix2 (0 : Fin 2) (⟨p.val, by omega⟩ : Fin 593))
    + Pk (ix2 (1 : Fin 2) (⟨p.val, by omega⟩ : Fin 593))

/-- The whole transposed verb result, index by index. -/
def whole (X : S16384x768.Idx → EReal) (Wt : S115x768.Idx → EReal) (Pk : S2x593.Idx → EReal) : S115x16384.Idx → EReal :=
  fun i => entry X Wt Pk ⟨(i 0).val, idx2_lt0 i⟩ ⟨(i 1).val, idx2_lt1 i⟩

theorem whole_apply (X : S16384x768.Idx → EReal) (Wt : S115x768.Idx → EReal) (Pk : S2x593.Idx → EReal) (p : Fin 115) (r : Fin 16384) :
    whole X Wt Pk (ix2 p r) = entry X Wt Pk p r := rfl

variable (m : (ℓ : Loc nD τ sig) → Buf (Elt Ideal) ℓ)

/-- What point `t` writes back is block `t` of `whole`. -/
theorem flushed_eq (c : Dev nD) (t : Fin cfg0.N) :
    (dats m 0 c).flushed 4 t = ((cfg0.win 4).blk t).view.read (Elt Ideal)
      (whole (V m c main_arg0) (V m c main_call0_v0) (V m c main_call0_v8)) := by
  show (cfg0.win 4).cut (grid0.coords t) ((dats m 0 c).after 4 t) = _
  rw [after0_4]
  unfold out0_4
  rw [View.canon_unit_zero hz]
  simp only [View.ld_unit_zero (S := S4096x768) hz, View.ld_unit_zero (S := S2x593) hz, View.ld_unit_zero (S := S115x768) hz]
  funext j
  obtain ⟨p, q, rfl⟩ : ∃ (p : Fin 115) (q : Fin 4096), j = ix2 p q := ⟨j 0, j 1, eq_ix2 j⟩
  have ht := point_lt t
  obtain ⟨r, hr⟩ : ∃ r : Fin 16384, r.val = t.val * 4096 + q.val := ⟨⟨t.val * 4096 + q.val, by omega⟩, rfl⟩
  obtain ⟨-, -, -, -, -, -, -, -, e0, e1, -⟩ := idx_facts t
  have hi : ((cfg0.win 4).blk t).view.emb (ix2 p q) = (ix2 p r : S115x16384.Idx) := by
    funext a; apply Fin.ext
    match a with
    | ⟨0, _⟩ => show win0_4.index t (0 : Fin 2) * 115 + 1 * p.val = p.val; rw [e0]; omega
    | ⟨1, _⟩ => show win0_4.index t (1 : Fin 2) * 4096 + 1 * q.val = r.val; rw [e1, hr]; omega
  show k0_pay3 (F := Ideal) (iblk m c 0 t) (iblk m c 3 t) (iblk m c 1 t) (ix2 p q)
    = whole (V m c main_arg0) (V m c main_call0_v0) (V m c main_call0_v8) (((cfg0.win 4).blk t).view.emb (ix2 p q))
  rw [hi, whole_apply]
  refine (stored_apply (iblk m c 0 t) (iblk m c 3 t) (iblk m c 1 t) p q).trans ?_
  unfold entry
  exact congrArg₂ (· + ·)
    (congrArg₂ (· * ·)
      (Finset.sum_congr rfl fun k _ => congrArg₂ (· * ·) (Blocks.verbT_apply m c t (ix2 p k))
        (Blocks.feats_apply m c t (ix2 q k) (ix2 r k) hr rfl))
      (Blocks.packed_apply m c t _))
    (Blocks.packed_apply m c t _)

/-- An index of the array is in point `t`'s block iff each coordinate is in the block's range on its axis. -/
theorem mem_blk (t : Fin cfg0.N) (i : S115x16384.Idx) :
    i ∈ ((cfg0.win 4).blk t).view.set ↔ ∀ a : Fin 2, win0_4.index t a * S115x4096.size a ≤ (i a).val ∧ (i a).val < win0_4.index t a * S115x4096.size a + S115x4096.size a := by
  show i ∈ ((View.whole main_call0_v9_0).slice (win0_4.rect t)).set ↔ _
  rw [View.set_slice_whole, Rect.mem_set_unit]
  exact Iff.rfl

/-- Every index is in the block of the point its column falls to. -/
theorem cover (i : S115x16384.Idx) :
    ∃ t : Fin cfg0.N, (cfg0.win 4).flush t = true ∧ i ∈ ((cfg0.win 4).blk t).view.set := by
  have h0 : (i 0).val < 115 := idx2_lt0 i
  have h1 : (i 1).val < 16384 := idx2_lt1 i
  obtain ⟨t, ht⟩ : ∃ t : Fin cfg0.N, t.val = (i 1).val / 4096 :=
    ⟨⟨(i 1).val / 4096, by rw [show cfg0.N = 4 from N_0]; omega⟩, rfl⟩
  obtain ⟨-, -, -, -, -, -, -, -, e0, e1, -⟩ := idx_facts t
  refine ⟨t, flush0_4 t, ?_⟩
  rw [mem_blk]
  intro a
  match a with
  | ⟨0, _⟩ =>
    show win0_4.index t (0 : Fin 2) * 115 ≤ (i 0).val ∧ (i 0).val < win0_4.index t (0 : Fin 2) * 115 + 115
    rw [e0]; omega
  | ⟨1, _⟩ =>
    show win0_4.index t (1 : Fin 2) * 4096 ≤ (i 1).val ∧ (i 1).val < win0_4.index t (1 : Fin 2) * 4096 + 4096
    rw [e1, ht]; omega

/-- The array after the run. -/
theorem final (c : Dev nD) :
    (dats m 0 c).arrAt 4 cfg0.N = whole (V m c main_arg0) (V m c main_call0_v0) (V m c main_call0_v8) :=
  (dats m 0 c).arrAt_eq_of_cover 4 _ (fun t _ => flushed_eq m c t) cover

end Cert.KernelIdeal.VerbHead

end
-- ==== Proof.NounStored.lean ====
/-
  The noun head's stored value at one entry.  The body reuses the point's 4096 rows of the features `X` and the
  packed operand `P` (2 × 593), now with the whole transposed noun weights `Wt` (478 × 768).  Of the transposed `P`
  it cuts the noun half (rows 115 … 592, that is classes 0 … 477 of the nouns) and its two columns, and stores, for
  noun class `p` and row `q` of the block,

      (∑ₖ Wt[p, k] · X[q, k]) · P[0, 115 + p] + P[1, 115 + p].
-/
import proofs.«115485_g46634754900585_cont_8to1_c_1152_26_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.NounHead

open Cert.KernelIdeal Cert.KernelIdeal.Gen Idealize.ShloMosaic Idealize.ShloMosaic.TcCoe Idealize.ShloMosaic.ValueIdx

/-! ## The product's operand indices -/

theorem lhs_ax0 (i : S478x4096.Idx) (q : dot_S478x768_S4096x768_S478x4096_1_1_0_0_n_n.contr.Idx) :
    (dot_S478x768_S4096x768_S478x4096_1_1_0_0_n_n.lhsIdx i q 0).val = (i 0).val := by
  unfold DotDims.lhsIdx
  rw [dif_neg (show ¬(0 : Fin S478x768.rank) ∈ dot_S478x768_S4096x768_S478x4096_1_1_0_0_n_n.lhsBatch by decide), dif_pos (show (0 : Fin S478x768.rank) ∈ dot_S478x768_S4096x768_S478x4096_1_1_0_0_n_n.lhsNonContracting by decide)]
  rfl
theorem lhs_ax1 (i : S478x4096.Idx) (q : dot_S478x768_S4096x768_S478x4096_1_1_0_0_n_n.contr.Idx) :
    (dot_S478x768_S4096x768_S478x4096_1_1_0_0_n_n.lhsIdx i q 1).val = (q ⟨0, by decide⟩).val :=
  dot_S478x768_S4096x768_S478x4096_1_1_0_0_n_n.lhsIdx_val_of_single rfl i q
theorem rhs_ax0 (i : S478x4096.Idx) (q : dot_S478x768_S4096x768_S478x4096_1_1_0_0_n_n.contr.Idx) :
    (dot_S478x768_S4096x768_S478x4096_1_1_0_0_n_n.rhsIdx i q 0).val = (i 1).val := by
  unfold DotDims.rhsIdx
  rw [dif_neg (show ¬(0 : Fin S4096x768.rank) ∈ dot_S478x768_S4096x768_S478x4096_1_1_0_0_n_n.rhsBatch by decide), dif_pos (show (0 : Fin S4096x768.rank) ∈ dot_S478x768_S4096x768_S478x4096_1_1_0_0_n_n.rhsNonContracting by decide)]
  rfl
theorem rhs_ax1 (i : S478x4096.Idx) (q : dot_S478x768_S4096x768_S478x4096_1_1_0_0_n_n.contr.Idx) :
    (dot_S478x768_S4096x768_S478x4096_1_1_0_0_n_n.rhsIdx i q 1).val = (q ⟨0, by decide⟩).val :=
  dot_S478x768_S4096x768_S478x4096_1_1_0_0_n_n.rhsIdx_val_of_single rfl i q

/-- Entry (class, row) of the product reads row `class` of the noun weights … -/
abbrev wIdx (i : S478x4096.Idx) (k : Fin 768) : S478x768.Idx := fun a => match a with
  | ⟨0, _⟩ => ⟨(i 0).val, (i 0).isLt⟩
  | ⟨1, _⟩ => ⟨k.val, k.isLt⟩
/-- … against row `row` of the features block. -/
abbrev xIdx (i : S478x4096.Idx) (k : Fin 768) : S4096x768.Idx := fun a => match a with
  | ⟨0, _⟩ => ⟨(i 1).val, (i 1).isLt⟩
  | ⟨1, _⟩ => ⟨k.val, k.isLt⟩

/-- The transposed-right-operand product into the zero splat, at an entry: the sum over the 768 contracted
    coordinates of weight times feature. -/
theorem product_apply (A : FVec Ideal S478x768 .bf16) (B : FVec Ideal S4096x768 .bf16) (i : S478x4096.Idx) :
    matmul dot_S478x768_S4096x768_S478x4096_1_1_0_0_n_n none A B (constant S478x4096 .f32 0x00000000#32) i
      = ∑ k : Fin 768, A (wIdx i k) * B (xIdx i k) := by
  simp only [matmul]
  rw [Ideal.matmul_constant_zero_apply, ← Equiv.sum_comp (contrEquiv1 dot_S478x768_S4096x768_S478x4096_1_1_0_0_n_n 768 rfl rfl).symm]
  refine Finset.sum_congr rfl fun k _ => ?_
  have hk := contrEquiv1_symm_val dot_S478x768_S4096x768_S478x4096_1_1_0_0_n_n 768 rfl rfl k
  have el : dot_S478x768_S4096x768_S478x4096_1_1_0_0_n_n.lhsIdx i ((contrEquiv1 dot_S478x768_S4096x768_S478x4096_1_1_0_0_n_n 768 rfl rfl).symm k) = wIdx i k := funext fun a => Fin.ext (by
    match a with
    | ⟨0, _⟩ => exact lhs_ax0 _ _
    | ⟨1, _⟩ => exact (lhs_ax1 _ _).trans hk)
  have er : dot_S478x768_S4096x768_S478x4096_1_1_0_0_n_n.rhsIdx i ((contrEquiv1 dot_S478x768_S4096x768_S478x4096_1_1_0_0_n_n 768 rfl rfl).symm k) = xIdx i k := funext fun a => Fin.ext (by
    match a with
    | ⟨0, _⟩ => exact rhs_ax0 _ _
    | ⟨1, _⟩ => exact (rhs_ax1 _ _).trans hk)
  rw [el, er]

/-! ## The packed operand: transposed, the noun half, one column -/

/-- Row `p`, column `u` of the noun half of the transposed packed operand is `P[u, 115 + p]`. -/
theorem packed_apply (x3 : Vec Ideal S2x593 .f32) (p : Fin 478) (u : Fin 2) :
    extractStridedSlice S478x2 ![115, 0] (k0_pay2 (F := Ideal) x3) slices_S593x2_o115_0_S478x2 (ix2 p u)
      = x3 (ix2 u (⟨115 + p.val, by omega⟩ : Fin 593)) := by
  refine (extractStridedSlice_apply _ _ _ (ix2 p u) (ix2 (⟨115 + p.val, by omega⟩ : Fin 593) u) (fun a => match a with
    | ⟨0, _⟩ => by show 115 + p.val = 115 + p.val; rfl
    | ⟨1, _⟩ => by show u.val = 0 + u.val; omega)).trans ?_
  unfold k0_pay2
  rw [shapeCast_self]
  exact transpose_apply _ _ _ (ix2 (⟨115 + p.val, by omega⟩ : Fin 593) u) (ix2 u (⟨115 + p.val, by omega⟩ : Fin 593)) (fun b => match b with
    | ⟨0, _⟩ => rfl
    | ⟨1, _⟩ => rfl)

/-- Column `u` of a 478 × 2 array, spread along 4096 lanes, read at (p, q): the array at (p, u). -/
theorem column_apply (v : FVec Ideal S478x2 .f32) (p : Fin 478) (q : Fin 4096) :
    broadcastTo S478x4096 (extractStridedSlice S478x1 ![0, 0] v slices_S478x2_o0_0_S478x1) broadcasts_S478x1_S478x4096 (ix2 p q) = v (ix2 p (0 : Fin 2))
    ∧ broadcastTo S478x4096 (extractStridedSlice S478x1 ![0, 1] v slices_S478x2_o0_1_S478x1) broadcasts_S478x1_S478x4096 (ix2 p q) = v (ix2 p (1 : Fin 2)) := by
  constructor
  · refine (broadcastTo_apply _ _ (ix2 p q) (ix2 p (0 : Fin 1)) (fun a => match a with
      | ⟨0, _⟩ => by show p.val = if (478 : Nat) = 1 then 0 else p.val; rw [if_neg (by decide)]
      | ⟨1, _⟩ => by show 0 = if (1 : Nat) = 1 then 0 else q.val; rw [if_pos rfl])).trans ?_
    exact extractStridedSlice_apply _ _ _ (ix2 p (0 : Fin 1)) (ix2 p (0 : Fin 2)) (fun a => match a with
      | ⟨0, _⟩ => by show p.val = 0 + p.val; omega
      | ⟨1, _⟩ => by show 0 = 0 + 0; rfl)
  · refine (broadcastTo_apply _ _ (ix2 p q) (ix2 p (0 : Fin 1)) (fun a => match a with
      | ⟨0, _⟩ => by show p.val = if (478 : Nat) = 1 then 0 else p.val; rw [if_neg (by decide)]
      | ⟨1, _⟩ => by show 0 = if (1 : Nat) = 1 then 0 else q.val; rw [if_pos rfl])).trans ?_
    exact extractStridedSlice_apply _ _ _ (ix2 p (0 : Fin 1)) (ix2 p (1 : Fin 2)) (fun a => match a with
      | ⟨0, _⟩ => by show p.val = 0 + p.val; omega
      | ⟨1, _⟩ => by show 1 = 1 + 0; rfl)

/-! ## The stored value at an entry -/

/-- What the body stores in the noun output block, at noun class `p` and block row `q`. -/
theorem stored_apply (x0 : Vec Ideal S4096x768 .f32) (x3 : Vec Ideal S2x593 .f32) (x2 : Vec Ideal S478x768 .f32)
    (p : Fin 478) (q : Fin 4096) :
    k0_pay4 (F := Ideal) x0 x3 x2 (ix2 p q)
      = (∑ k : Fin 768, x2 (ix2 p k) * x0 (ix2 q k)) * x3 (ix2 (0 : Fin 2) (⟨115 + p.val, by omega⟩ : Fin 593))
        + x3 (ix2 (1 : Fin 2) (⟨115 + p.val, by omega⟩ : Fin 593)) := by
  unfold k0_pay4
  refine (addf_apply _ _ _).trans ?_
  refine congrArg₂ (· + ·) ((mulf_apply _ _ _).trans (congrArg₂ (· * ·) ?_ ?_)) ?_
  · refine (product_apply _ _ (ix2 p q)).trans ?_
    unfold k0_pay1
    rw [shapeCast_self]
    refine Finset.sum_congr rfl fun k _ => ?_
    have ew : wIdx (ix2 p q) k = ix2 p k := funext fun a => match a with
      | ⟨0, _⟩ => rfl
      | ⟨1, _⟩ => rfl
    have ex : xIdx (ix2 p q) k = ix2 q k := funext fun a => match a with
      | ⟨0, _⟩ => rfl
      | ⟨1, _⟩ => rfl
    show x2 (wIdx (ix2 p q) k) * x0 (xIdx (ix2 p q) k) = _
    rw [ew, ex]
  · exact ((column_apply _ p q).1).trans (packed_apply x3 p 0)
  · exact ((column_apply _ p q).2).trans (packed_apply x3 p 1)

end Cert.KernelIdeal.NounHead

end
-- ==== Proof.NounArray.lean ====
/-
  The noun output array after the region.  With `X` the features (16384 × 768), `Wt` the transposed noun weights
  (478 × 768) and `Pk` the packed operand (2 × 593), as the region finds them, the array (478 × 16384) ends
  holding, at noun class `p` and row `r`,

      entry p r = (∑ₖ Wt[p, k] · X[r, k]) · Pk[0, 115 + p] + Pk[1, 115 + p]

  (the nouns' columns of the packed operand come after the 115 verbs').  Point `t` writes back columns
  `4096·t … 4096·t + 4095`, and the four blocks tile the columns.
-/
import proofs.«115485_g46634754900585_cont_8to1_c_1152_26_alg».proof.Proof.Gen.KernelIdeal.Frame
import proofs.«115485_g46634754900585_cont_8to1_c_1152_26_alg».proof.Proof.NounStored
import proofs.«115485_g46634754900585_cont_8to1_c_1152_26_alg».proof.Proof.Blocks
import Idealize.ShloMosaic.Lib.Pipeline.Value
import Idealize.ShloMosaic.Lib.ValueIdx

noncomputable section

open scoped BigOperators

namespace Cert.KernelIdeal.NounHead

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Blocks (hz idx_facts point_lt)

/-- One entry of the transposed noun result. -/
def entry (X : S16384x768.Idx → EReal) (Wt : S478x768.Idx → EReal) (Pk : S2x593.Idx → EReal) (p : Fin 478) (r : Fin 16384) : EReal :=
  (∑ k : Fin 768, Wt (ix2 p k) * X (ix2 r k)) * Pk (ix2 (0 : Fin 2) (⟨115 + p.val, by omega⟩ : Fin 593))
    + Pk (ix2 (1 : Fin 2) (⟨115 + p.val, by omega⟩ : Fin 593))

/-- The whole transposed noun result, index by index. -/
def whole (X : S16384x768.Idx → EReal) (Wt : S478x768.Idx → EReal) (Pk : S2x593.Idx → EReal) : S478x16384.Idx → EReal :=
  fun i => entry X Wt Pk ⟨(i 0).val, idx2_lt0 i⟩ ⟨(i 1).val, idx2_lt1 i⟩

theorem whole_apply (X : S16384x768.Idx → EReal) (Wt : S478x768.Idx → EReal) (Pk : S2x593.Idx → EReal) (p : Fin 478) (r : Fin 16384) :
    whole X Wt Pk (ix2 p r) = entry X Wt Pk p r := rfl

variable (m : (ℓ : Loc nD τ sig) → Buf (Elt Ideal) ℓ)

/-- What point `t` writes back is block `t` of `whole`. -/
theorem flushed_eq (c : Dev nD) (t : Fin cfg0.N) :
    (dats m 0 c).flushed 5 t = ((cfg0.win 5).blk t).view.read (Elt Ideal)
      (whole (V m c main_arg0) (V m c main_call0_v1) (V m c main_call0_v8)) := by
  show (cfg0.win 5).cut (grid0.coords t) ((dats m 0 c).after 5 t) = _
  rw [after0_5]
  unfold out0_5
  rw [View.canon_unit_zero hz]
  simp only [View.ld_unit_zero (S := S4096x768) hz, View.ld_unit_zero (S := S2x593) hz, View.ld_unit_zero (S := S478x768) hz]
  funext j
  obtain ⟨p, q, rfl⟩ : ∃ (p : Fin 478) (q : Fin 4096), j = ix2 p q := ⟨j 0, j 1, eq_ix2 j⟩
  have ht := point_lt t
  obtain ⟨r, hr⟩ : ∃ r : Fin 16384, r.val = t.val * 4096 + q.val := ⟨⟨t.val * 4096 + q.val, by omega⟩, rfl⟩
  obtain ⟨-, -, -, -, -, -, -, -, -, -, e0, e1⟩ := idx_facts t
  have hi : ((cfg0.win 5).blk t).view.emb (ix2 p q) = (ix2 p r : S478x16384.Idx) := by
    funext a; apply Fin.ext
    match a with
    | ⟨0, _⟩ => show win0_5.index t (0 : Fin 2) * 478 + 1 * p.val = p.val; rw [e0]; omega
    | ⟨1, _⟩ => show win0_5.index t (1 : Fin 2) * 4096 + 1 * q.val = r.val; rw [e1, hr]; omega
  show k0_pay4 (F := Ideal) (iblk m c 0 t) (iblk m c 3 t) (iblk m c 2 t) (ix2 p q)
    = whole (V m c main_arg0) (V m c main_call0_v1) (V m c main_call0_v8) (((cfg0.win 5).blk t).view.emb (ix2 p q))
  rw [hi, whole_apply]
  refine (stored_apply (iblk m c 0 t) (iblk m c 3 t) (iblk m c 2 t) p q).trans ?_
  unfold entry
  exact congrArg₂ (· + ·)
    (congrArg₂ (· * ·)
      (Finset.sum_congr rfl fun k _ => congrArg₂ (· * ·) (Blocks.nounT_apply m c t (ix2 p k))
        (Blocks.feats_apply m c t (ix2 q k) (ix2 r k) hr rfl))
      (Blocks.packed_apply m c t _))
    (Blocks.packed_apply m c t _)

/-- An index of the array is in point `t`'s block iff each coordinate is in the block's range on its axis. -/
theorem mem_blk (t : Fin cfg0.N) (i : S478x16384.Idx) :
    i ∈ ((cfg0.win 5).blk t).view.set ↔ ∀ a : Fin 2, win0_5.index t a * S478x4096.size a ≤ (i a).val ∧ (i a).val < win0_5.index t a * S478x4096.size a + S478x4096.size a := by
  show i ∈ ((View.whole main_call0_v9_1).slice (win0_5.rect t)).set ↔ _
  rw [View.set_slice_whole, Rect.mem_set_unit]
  exact Iff.rfl

/-- Every index is in the block of the point its column falls to. -/
theorem cover (i : S478x16384.Idx) :
    ∃ t : Fin cfg0.N, (cfg0.win 5).flush t = true ∧ i ∈ ((cfg0.win 5).blk t).view.set := by
  have h0 : (i 0).val < 478 := idx2_lt0 i
  have h1 : (i 1).val < 16384 := idx2_lt1 i
  obtain ⟨t, ht⟩ : ∃ t : Fin cfg0.N, t.val = (i 1).val / 4096 :=
    ⟨⟨(i 1).val / 4096, by rw [show cfg0.N = 4 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 478 ≤ (i 0).val ∧ (i 0).val < win0_5.index t (0 : Fin 2) * 478 + 478
    rw [e0]; omega
  | ⟨1, _⟩ =>
    show win0_5.index t (1 : Fin 2) * 4096 ≤ (i 1).val ∧ (i 1).val < win0_5.index t (1 : Fin 2) * 4096 + 4096
    rw [e1, ht]; omega

/-- The array after the run. -/
theorem final (c : Dev nD) :
    (dats m 0 c).arrAt 5 cfg0.N = whole (V m c main_arg0) (V m c main_call0_v1) (V m c main_call0_v8) :=
  (dats m 0 c).arrAt_eq_of_cover 5 _ (fun t _ => flushed_eq m c t) cover

end Cert.KernelIdeal.NounHead

end
-- ==== Proof.Entry.lean ====
/-
  What the region finds in the three arrays the host builds before it, read at an entry.
  * The verb weights transposed, `Wt[p, k] = W_verb[k, p]` (115 × 768), and likewise the noun weights (478 × 768).
  * The packed operand `P` (2 × 593).  With `mask` the two class masks laid end to end (verbs 0 … 114, nouns
    115 … 592) and `bias` the two biases laid end to end, row 0 is `mask` read as the numbers 0 and 1 and row 1 is
    `bias` where the mask bit is set and the mask value `M` elsewhere.  So for a verb class `j < 115` the column
    `j` holds (bit of seen_verb[j], seen_verb[j] ? b_verb[j] : M), and for a noun class `j < 478` the column
    `115 + j` holds the same of the noun arrays.
-/
import proofs.«115485_g46634754900585_cont_8to1_c_1152_26_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

/-! ## The packed operand as a function of the four small arguments -/

/-- The two masks, and the two biases, laid end to end. -/
def maskCat (a5 : (⟨S115, .i1⟩ : BufTy).Contents (Elt Ideal)) (a6 : (⟨S478, .i1⟩ : BufTy).Contents (Elt Ideal)) :
    (⟨S593, .i1⟩ : BufTy).Contents (Elt Ideal) :=
  concatenate S593 0 [⟨S115, a5⟩, ⟨S478, a6⟩] concatenates_S115_S478_S593_d0
def biasCat (a2 : (⟨S115, .f32⟩ : BufTy).Contents (Elt Ideal)) (a4 : (⟨S478, .f32⟩ : BufTy).Contents (Elt Ideal)) :
    (⟨S593, .f32⟩ : BufTy).Contents (Elt Ideal) :=
  concatenate S593 0 [⟨S115, a2⟩, ⟨S478, a4⟩] concatenates_S115_S478_S593_d0

/-- Row 0: the mask as numbers; row 1: the bias where seen, the mask value elsewhere. -/
def packed (a2 : (⟨S115, .f32⟩ : BufTy).Contents (Elt Ideal)) (a4 : (⟨S478, .f32⟩ : BufTy).Contents (Elt Ideal))
    (a5 : (⟨S115, .i1⟩ : BufTy).Contents (Elt Ideal)) (a6 : (⟨S478, .i1⟩ : BufTy).Contents (Elt Ideal)) :
    (⟨S2x593, .f32⟩ : BufTy).Contents (Elt Ideal) :=
  concatenate S2x593 0
    [⟨S1x593, broadcastInDim S1x593 ![1] bcast_S593_S1x593_1 (uitofp (F := Ideal) .f32 (maskCat a5 a6))⟩,
     ⟨S1x593, broadcastInDim S1x593 ![1] bcast_S593_S1x593_1
        (select (maskCat a5 a6) (biasCat a2 a4) (broadcastInDim S593 ![] bcast_S_S593 (id (constant (F := Ideal) S_ .f32 0xD368D4A5#32))))⟩]
    concatenates_S1x593_S1x593_S2x593_d0

/-- The mask value, as the extended real its word denotes. -/
abbrev maskVal : EReal := Ideal.ofBits .f32 0xD368D4A5#32

/-- A vector laid out as one row, read at (0, j). -/
theorem row_apply {α : Type} (x : S593.Idx → α) (j : Fin 593) :
    broadcastInDim S1x593 ![1] bcast_S593_S1x593_1 x (ix2 (0 : Fin 1) j) = x (ix1 j) :=
  broadcastInDim_apply _ bcast_S593_S1x593_1 x (ix2 (0 : Fin 1) j) (ix1 j) (fun a => match a with
    | ⟨0, _⟩ => by show j.val = if (593 : Nat) = 1 then 0 else j.val; rw [if_neg (by decide)])

/-- Row 0 of the packed operand at column `j`: the mask bit there, as a number. -/
theorem packed_row0 (a2 a4 a5 a6) (j : Fin 593) :
    packed a2 a4 a5 a6 (ix2 (0 : Fin 2) j) = FloatOps.uitofp (F := Ideal) .f32 (maskCat a5 a6 (ix1 j)) := by
  unfold packed
  refine (concatenate_pair_apply_left (t := S2x593) (s₁ := S1x593) (s₂ := S1x593) (0 : Fin 2) _ _ concatenates_S1x593_S1x593_S2x593_d0 (ix2 (0 : Fin 2) j) rfl
    (ix2 (0 : Fin 1) j) (fun b => match b with
      | ⟨0, _⟩ => rfl
      | ⟨1, _⟩ => rfl)).trans ?_
  exact row_apply _ j

/-- Row 1 at column `j`: the bias where the bit is set, the mask value elsewhere. -/
theorem packed_row1 (a2 a4 a5 a6) (j : Fin 593) :
    packed a2 a4 a5 a6 (ix2 (1 : Fin 2) j) = Scalar.select (maskCat a5 a6 (ix1 j)) (biasCat a2 a4 (ix1 j)) maskVal := by
  unfold packed
  refine (concatenate_pair_apply_right (t := S2x593) (s₁ := S1x593) (s₂ := S1x593) (0 : Fin 2) _ _ concatenates_S1x593_S1x593_S2x593_d0 (ix2 (1 : Fin 2) j) rfl rfl
    (ix2 (0 : Fin 1) j) (fun b hb => match b, hb with
      | ⟨0, _⟩, hb => absurd rfl hb
      | ⟨1, _⟩, _ => rfl) rfl).trans ?_
  refine (row_apply _ j).trans ?_
  refine (select_apply _ _ _ _).trans ?_
  refine congrArg (Scalar.select _ _) ?_
  exact broadcastInDim_apply _ bcast_S_S593 _ (ix1 j) ix0 (fun a => a.elim0)

/-! ## Two arrays laid end to end, read in either part -/

theorem cat_left {α : Type} (a : S115.Idx → α) (b : S478.Idx → α) (j : Fin 115) :
    concatenate S593 0 [⟨S115, a⟩, ⟨S478, b⟩] concatenates_S115_S478_S593_d0 (ix1 (⟨j.val, by omega⟩ : Fin 593)) = a (ix1 j) :=
  concatenate_pair_apply_left (t := S593) (s₁ := S115) (s₂ := S478) (0 : Fin 1) a b concatenates_S115_S478_S593_d0 (ix1 (⟨j.val, by omega⟩ : Fin 593)) rfl (ix1 j) (fun b => match b with
    | ⟨0, _⟩ => rfl)

theorem cat_right {α : Type} (a : S115.Idx → α) (b : S478.Idx → α) (j : Fin 478) :
    concatenate S593 0 [⟨S115, a⟩, ⟨S478, b⟩] concatenates_S115_S478_S593_d0 (ix1 (⟨115 + j.val, by omega⟩ : Fin 593)) = b (ix1 j) :=
  concatenate_pair_apply_right (t := S593) (s₁ := S115) (s₂ := S478) (0 : Fin 1) a b concatenates_S115_S478_S593_d0 (ix1 (⟨115 + j.val, by omega⟩ : Fin 593)) rfl rfl (ix1 j) (fun b hb => match b, hb with
    | ⟨0, _⟩, hb => absurd rfl hb) (by show j.val + 115 = 115 + j.val; omega)

/-- Verb class `j`: column `j` of the packed operand. -/
theorem packed_verb (a2 a4 a5 a6) (j : Fin 115) :
    packed a2 a4 a5 a6 (ix2 (0 : Fin 2) (⟨j.val, by omega⟩ : Fin 593)) = FloatOps.uitofp (F := Ideal) .f32 (a5 (ix1 j))
    ∧ packed a2 a4 a5 a6 (ix2 (1 : Fin 2) (⟨j.val, by omega⟩ : Fin 593)) = Scalar.select (a5 (ix1 j)) (a2 (ix1 j)) maskVal := by
  refine ⟨(packed_row0 a2 a4 a5 a6 _).trans ?_, (packed_row1 a2 a4 a5 a6 _).trans ?_⟩
  · unfold maskCat; rw [cat_left]
  · unfold maskCat biasCat; rw [cat_left, cat_left]

/-- Noun class `j`: column `115 + j` of the packed operand. -/
theorem packed_noun (a2 a4 a5 a6) (j : Fin 478) :
    packed a2 a4 a5 a6 (ix2 (0 : Fin 2) (⟨115 + j.val, by omega⟩ : Fin 593)) = FloatOps.uitofp (F := Ideal) .f32 (a6 (ix1 j))
    ∧ packed a2 a4 a5 a6 (ix2 (1 : Fin 2) (⟨115 + j.val, by omega⟩ : Fin 593)) = Scalar.select (a6 (ix1 j)) (a4 (ix1 j)) maskVal := by
  refine ⟨(packed_row0 a2 a4 a5 a6 _).trans ?_, (packed_row1 a2 a4 a5 a6 _).trans ?_⟩
  · unfold maskCat; rw [cat_right]
  · unfold maskCat biasCat; rw [cat_right, cat_right]

/-! ## The arrays as the region finds them -/

variable (m : (ℓ : Loc nD τ sig) → Buf (Elt Ideal) ℓ)

/-- The packed operand's array holds `packed` of the four small arguments. -/
theorem V_packed (c : Dev nD) :
    (V m c main_call0_v8 : (⟨S2x593, .f32⟩ : BufTy).Contents (Elt Ideal))
      = packed (m ((c : Thread nD τ).loc main_arg2)) (m ((c : Thread nD τ).loc main_arg4))
          (m ((c : Thread nD τ).loc main_arg5)) (m ((c : Thread nD τ).loc main_arg6)) := by
  show StableHlo.after hostOps0 (fun b => m (c, b)) (Proc.devRef .tc main_call0_v8) = _
  after_results
  rfl

/-- The verb weights' array holds the transposed argument. -/
theorem V_verbT (c : Dev nD) :
    (V m c main_call0_v0 : (⟨S115x768, .f32⟩ : BufTy).Contents (Elt Ideal))
      = transpose S115x768 [1, 0] (m ((c : Thread nD τ).loc main_arg1)) transposes_S768x115_S115x768_1_0 := by
  show StableHlo.after hostOps0 (fun b => m (c, b)) (Proc.devRef .tc main_call0_v0) = _
  after_results
  rfl

/-- The noun weights' array holds the transposed argument. -/
theorem V_nounT (c : Dev nD) :
    (V m c main_call0_v1 : (⟨S478x768, .f32⟩ : BufTy).Contents (Elt Ideal))
      = transpose S478x768 [1, 0] (m ((c : Thread nD τ).loc main_arg3)) transposes_S768x478_S478x768_1_0 := by
  show StableHlo.after hostOps0 (fun b => m (c, b)) (Proc.devRef .tc main_call0_v1) = _
  after_results
  rfl

/-- Entry (p, k) of the transposed verb weights is entry (k, p) of the argument. -/
theorem verbT_apply (w : S768x115.Idx → EReal) (p : Fin 115) (k : Fin 768) :
    transpose S115x768 [1, 0] w transposes_S768x115_S115x768_1_0 (ix2 p k) = w (ix2 k p) :=
  transpose_apply _ _ _ (ix2 p k) (ix2 k p) (fun b => match b with
    | ⟨0, _⟩ => rfl
    | ⟨1, _⟩ => rfl)

/-- Entry (p, k) of the transposed noun weights is entry (k, p) of the argument. -/
theorem nounT_apply (w : S768x478.Idx → EReal) (p : Fin 478) (k : Fin 768) :
    transpose S478x768 [1, 0] w transposes_S768x478_S478x768_1_0 (ix2 p k) = w (ix2 k p) :=
  transpose_apply _ _ _ (ix2 p k) (ix2 k p) (fun b => match b with
    | ⟨0, _⟩ => rfl
    | ⟨1, _⟩ => rfl)

end Cert.KernelIdeal.Entry

end
-- ==== Proof.Law.lean ====
/-
  The one algebraic law that joins the two programs.  The kernel folds the unseen-class mask into a multiply-add:
  with the mask bit read as the number 0 or 1 it stores  logit · bit + (bias where the bit is set, else the mask
  value),  while the reference selects  logit + bias  where the bit is set and the mask value elsewhere.  On the
  extended reals  l · 1 + b = l + b  and  l · 0 + M = 0 + M = M  for EVERY  l  (a product with zero is zero, at an
  infinity too), so the two agree whatever the logit is: no finiteness is used.
-/
import Idealize.ShloMosaic.PureOps.Ideal
import Idealize.ShloMosaic.Lib.ValueIdx

noncomputable section

open Idealize.ShloMosaic Idealize.ShloMosaic.ValueIdx

namespace Cert.MaskedHead

/-- A set mask bit, read as an unsigned number, is the extended real one. -/
theorem bit_one : FloatOps.uitofp (F := Ideal) .f32 (1#1 : BitVec 1) = (1 : EReal) := by
  show (((1#1 : BitVec 1).toNat : ℝ) : EReal) = 1
  rw [show (1#1 : BitVec 1).toNat = 1 from rfl, Nat.cast_one, EReal.coe_one]

/-- A cleared mask bit is the extended real zero. -/
theorem bit_zero : FloatOps.uitofp (F := Ideal) .f32 (0#1 : BitVec 1) = (0 : EReal) := by
  show (((0#1 : BitVec 1).toNat : ℝ) : EReal) = 0
  rw [show (0#1 : BitVec 1).toNat = 0 from rfl, Nat.cast_zero, EReal.coe_zero]

/-- The masked multiply-add is the masked sum: `l · bit + (bit ? b : M) = (bit ? l + b : M)` for every extended real
    `l`, by cases on the bit. -/
theorem fma_eq_select (bit : BitVec 1) (l b M : EReal) :
    l * FloatOps.uitofp (F := Ideal) .f32 bit + Scalar.select bit b M = Scalar.select bit (l + b) M := by
  rcases BitVec.eq_zero_or_eq_one bit with rfl | rfl
  · rw [bit_zero, mul_zero, zero_add, select_zero, select_zero]
  · rw [bit_one, mul_one, select_one, select_one]

end Cert.MaskedHead

end
-- ==== Proof.Spec.lean ====
/-
  The masked classifier head, as one function of its arguments.  For features `X` (16384 × 768), weights `W`
  (768 × n), a bias `b` (n), a seen-class mask `seen` (n bits) and a mask value `M`, the result at row `r` and class
  `p` is the logit plus the bias where the class is seen and `M` where it is not:

      head[r, p] = if seen[p] then (∑ₖ X[r, k] · W[k, p]) + b[p] else M.

  Both programs compute this: the reference literally, the kernel through the transposed product and the masked
  multiply-add.
-/
import Idealize.ShloMosaic.PureOps.Ideal
import Idealize.ShloMosaic.Lib.ValueIdx

noncomputable section

open scoped BigOperators

open Idealize.ShloMosaic Idealize.ShloMosaic.ValueIdx

namespace Cert.MaskedHead

/-- The value both programs write where a class is not seen: the extended real the word of `-1e12` denotes. -/
abbrev maskVal : EReal := Ideal.ofBits .f32 0xD368D4A5#32

/-- The head over `n` classes, index by index. -/
def head (n : ℕ) (X : (⟨2, ![16384, 768]⟩ : Shape).Idx → EReal) (W : (⟨2, ![768, n]⟩ : Shape).Idx → EReal)
    (b : (⟨1, ![n]⟩ : Shape).Idx → EReal) (seen : (⟨1, ![n]⟩ : Shape).Idx → BitVec 1) (M : EReal) :
    (⟨2, ![16384, n]⟩ : Shape).Idx → EReal :=
  fun i => Scalar.select (seen (ix1 (⟨(i 1).val, idx2_lt1 i⟩ : Fin n)))
    ((∑ k : Fin 768, X (ix2 (⟨(i 0).val, idx2_lt0 i⟩ : Fin 16384) k) * W (ix2 k (⟨(i 1).val, idx2_lt1 i⟩ : Fin n)))
      + b (ix1 (⟨(i 1).val, idx2_lt1 i⟩ : Fin n))) M

/-- The head at row `r`, class `p`. -/
theorem head_apply (n : ℕ) (X : (⟨2, ![16384, 768]⟩ : Shape).Idx → EReal) (W : (⟨2, ![768, n]⟩ : Shape).Idx → EReal)
    (b : (⟨1, ![n]⟩ : Shape).Idx → EReal) (seen : (⟨1, ![n]⟩ : Shape).Idx → BitVec 1) (M : EReal) (r : Fin 16384) (p : Fin n) :
    head n X W b seen M (ix2 r p)
      = Scalar.select (seen (ix1 p)) ((∑ k : Fin 768, X (ix2 r k) * W (ix2 k p)) + b (ix1 p)) M := rfl

end Cert.MaskedHead

end
-- ==== Proof.KernelRun.lean ====
/-
  The kernel's run, read: its two results as the masked head of its arguments.

  After the region the host transposes each output array back: result 0 at (r, p) is the verb array at (p, r), and
  likewise result 1 of the noun array.  With the arrays the region finds read back to the arguments — the features
  as launched, `Wt[p, k] = W[k, p]`, the packed operand's column of class `p` the pair (bit of seen[p],
  seen[p] ? b[p] : M) — the verb array's entry is

      (∑ₖ W[k, p] · X[r, k]) · bit(seen[p]) + (seen[p] ? b[p] : M),

  which the masked multiply-add law turns into  seen[p] ? (∑ₖ W[k, p] · X[r, k]) + b[p] : M,  and commuting each
  product gives the head.  The nouns' columns of the packed operand sit 115 further on; nothing else differs.
-/
import proofs.«115485_g46634754900585_cont_8to1_c_1152_26_alg».proof.Proof.Gen.KernelIdeal.Frame
import proofs.«115485_g46634754900585_cont_8to1_c_1152_26_alg».proof.Proof.VerbArray
import proofs.«115485_g46634754900585_cont_8to1_c_1152_26_alg».proof.Proof.NounArray
import proofs.«115485_g46634754900585_cont_8to1_c_1152_26_alg».proof.Proof.Entry
import proofs.«115485_g46634754900585_cont_8to1_c_1152_26_alg».proof.Proof.Law
import proofs.«115485_g46634754900585_cont_8to1_c_1152_26_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo
open Cert.MaskedHead (head head_apply maskVal fma_eq_select)

variable (m : (ℓ : Loc nD τ sig) → Buf (Elt Ideal) ℓ) (ρ : Dev nD → PrngReg)

/-! ## The host lines after the region -/

/-- Result 0 is the verb array transposed. -/
theorem tail_verb (c : Dev nD) :
    Pipeline.afterTail₀ cfgs (dats m) 0 (V0 m) [hostOps1] c main_v0_0
      = transpose S16384x115 [1, 0] ((dats m 0 c).arrAt 4 cfg0.N) transposes_S115x16384_S16384x115_1_0 := by
  unfold Pipeline.afterTail₀
  show StableHlo.after hostOps1 _ (Proc.devRef .tc main_v0_0) = _
  after_results
  exact congrArg (fun x => transpose S16384x115 [1, 0] x transposes_S115x16384_S16384x115_1_0)
    (Pipeline.withArrays_arr spec0 launch0.win.arr_inj c (V0 m c) (fun w => (dats m 0 c).arrAt w cfg0.N) 4)

/-- Result 1 is the noun array transposed. -/
theorem tail_noun (c : Dev nD) :
    Pipeline.afterTail₀ cfgs (dats m) 0 (V0 m) [hostOps1] c main_v0_1
      = transpose S16384x478 [1, 0] ((dats m 0 c).arrAt 5 cfg0.N) transposes_S478x16384_S16384x478_1_0 := by
  unfold Pipeline.afterTail₀
  show StableHlo.after hostOps1 _ (Proc.devRef .tc main_v0_1) = _
  after_results
  exact congrArg (fun x => transpose S16384x478 [1, 0] x transposes_S478x16384_S16384x478_1_0)
    (Pipeline.withArrays_arr spec0 launch0.win.arr_inj c (V0 m c) (fun w => (dats m 0 c).arrAt w cfg0.N) 5)

/-! ## Each transposed array is the head -/

/-- The verb array, transposed back, is the head over the 115 verb classes. -/
theorem verb_eq (c : Dev nD) :
    transpose S16384x115 [1, 0] (VerbHead.whole (V m c main_arg0) (V m c main_call0_v0) (V m c main_call0_v8)) transposes_S115x16384_S16384x115_1_0
      = head 115 (m ((c : Thread nD τ).loc main_arg0)) (m ((c : Thread nD τ).loc main_arg1)) (m ((c : Thread nD τ).loc main_arg2))
          (m ((c : Thread nD τ).loc main_arg5)) maskVal := by
  funext i
  obtain ⟨r, p, rfl⟩ : ∃ (r : Fin 16384) (p : Fin 115), i = ix2 r p := ⟨i 0, i 1, eq_ix2 i⟩
  refine (transpose_apply _ _ _ (ix2 r p) (ix2 p r) (fun b => match b with
    | ⟨0, _⟩ => rfl
    | ⟨1, _⟩ => rfl)).trans ?_
  rw [VerbHead.whole_apply, head_apply]
  unfold VerbHead.entry
  rw [V_main_arg0, Entry.V_verbT, Entry.V_packed, (Entry.packed_verb _ _ _ _ p).1, (Entry.packed_verb _ _ _ _ p).2]
  refine (fma_eq_select _ _ _ _).trans ?_
  refine congrArg (fun s => Scalar.select _ (s + _) _) (Finset.sum_congr rfl fun k _ => ?_)
  rw [Entry.verbT_apply]
  exact mul_comm _ _

/-- The noun array, transposed back, is the head over the 478 noun classes. -/
theorem noun_eq (c : Dev nD) :
    transpose S16384x478 [1, 0] (NounHead.whole (V m c main_arg0) (V m c main_call0_v1) (V m c main_call0_v8)) transposes_S478x16384_S16384x478_1_0
      = head 478 (m ((c : Thread nD τ).loc main_arg0)) (m ((c : Thread nD τ).loc main_arg3)) (m ((c : Thread nD τ).loc main_arg4))
          (m ((c : Thread nD τ).loc main_arg6)) maskVal := by
  funext i
  obtain ⟨r, p, rfl⟩ : ∃ (r : Fin 16384) (p : Fin 478), i = ix2 r p := ⟨i 0, i 1, eq_ix2 i⟩
  refine (transpose_apply _ _ _ (ix2 r p) (ix2 p r) (fun b => match b with
    | ⟨0, _⟩ => rfl
    | ⟨1, _⟩ => rfl)).trans ?_
  rw [NounHead.whole_apply, head_apply]
  unfold NounHead.entry
  rw [V_main_arg0, Entry.V_nounT, Entry.V_packed, (Entry.packed_noun _ _ _ _ p).1, (Entry.packed_noun _ _ _ _ p).2]
  refine (fma_eq_select _ _ _ _).trans ?_
  refine congrArg (fun s => Scalar.select _ (s + _) _) (Finset.sum_congr rfl fun k _ => ?_)
  rw [Entry.nounT_apply]
  exact mul_comm _ _

/-! ## The run -/

/-- Every weakly fair execution of the kernel's program ends with the two results at the heads of the arguments
    and the arguments unchanged. -/
theorem run : θ_run defs (onTc (τ := τ) (main (F := Ideal))) ⟨m, fun _ => 0, ρ⟩ fun r => ∀ c : Dev nD,
      r.2.mem ((c.tc : Thread nD τ).loc main_v0_0)
        = head 115 (m ((c : Thread nD τ).loc main_arg0)) (m ((c : Thread nD τ).loc main_arg1)) (m ((c : Thread nD τ).loc main_arg2))
            (m ((c : Thread nD τ).loc main_arg5)) maskVal
      ∧ r.2.mem ((c.tc : Thread nD τ).loc main_v0_1)
        = head 478 (m ((c : Thread nD τ).loc main_arg0)) (m ((c : Thread nD τ).loc main_arg3)) (m ((c : Thread nD τ).loc main_arg4))
            (m ((c : Thread nD τ).loc main_arg6)) maskVal
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v0_0 (Pipeline.mem_restRefs_of main_v0_0 (by decide) (by decide))).trans (tail_verb m c)).trans
        ((congrArg (fun x => transpose S16384x115 [1, 0] x transposes_S115x16384_S16384x115_1_0) (VerbHead.final m c)).trans (verb_eq m c)),
      (((h c).2 main_v0_1 (Pipeline.mem_restRefs_of main_v0_1 (by decide) (by decide))).trans (tail_noun m c)).trans
        ((congrArg (fun x => transpose S16384x478 [1, 0] x transposes_S478x16384_S16384x478_1_0) (NounHead.final m c)).trans (noun_eq m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefSide.lean ====
/-
  The reference computes the masked head literally.  Read one operation at a time, its first result at row `r` and
  class `p` selects, on the bit `seen_verb[p]` broadcast down the rows, between  (∑ₖ feats[r, k] · W_verb[k, p]) +
  b_verb[p]  and the mask value; its second result is the same of the noun arrays.
-/
import proofs.«115485_g46634754900585_cont_8to1_c_1152_26_alg».proof.Proof.Gen.ReferenceIdeal.Read
import proofs.«115485_g46634754900585_cont_8to1_c_1152_26_alg».proof.Proof.Spec

noncomputable section

open scoped BigOperators

namespace Cert.ReferenceIdeal.Head

open Cert.ReferenceIdeal Cert.ReferenceIdeal.Gen Cert.ReferenceIdeal.Read Idealize.ShloMosaic Idealize.ShloMosaic.TcCoe
open Idealize.ShloMosaic.ValueIdx
open Cert.MaskedHead (head head_apply maskVal)

/-- The reference's first result is the head over the 115 verb classes. -/
theorem verb_eq (x0 : (⟨S16384x768, .f32⟩ : BufTy).Contents (Elt Ideal)) (x1 : (⟨S768x115, .f32⟩ : BufTy).Contents (Elt Ideal))
    (x2 : (⟨S115, .f32⟩ : BufTy).Contents (Elt Ideal)) (x5 : (⟨S115, .i1⟩ : BufTy).Contents (Elt Ideal)) :
    val_main_v9 (F := Ideal) x0 x1 x2 x5 = head 115 x0 x1 x2 x5 maskVal := by
  funext i
  obtain ⟨r, p, rfl⟩ : ∃ (r : Fin 16384) (p : Fin 115), i = ix2 r p := ⟨i 0, i 1, eq_ix2 i⟩
  have e5 : idx_main_v8 (idx_main_call0_v1 (ix2 r p)) = ix1 p := funext fun a => match a with
    | ⟨0, _⟩ => rfl
  have e2 : idx_main_v1 (idx_main_v2 (ix2 r p)) = ix1 p := funext fun a => match a with
    | ⟨0, _⟩ => rfl
  have el : ∀ k : Fin 768, lidx_main_v0 (ix2 r p) k = ix2 r k := fun k => funext fun a => match a with
    | ⟨0, _⟩ => rfl
    | ⟨1, _⟩ => rfl
  have er : ∀ k : Fin 768, ridx_main_v0 (ix2 r p) k = ix2 k p := fun k => funext fun a => match a with
    | ⟨0, _⟩ => rfl
    | ⟨1, _⟩ => rfl
  rw [val_main_v9_apply, val_main_call0_v1_apply, val_main_v8_apply, val_main_v3_apply, val_main_v0_apply,
    val_main_v2_apply, val_main_v1_apply, val_main_call0_v2_apply, val_main_call0_v0_apply, val_main_cst_apply, head_apply,
    e5, e2]
  simp only [el, er]
  rfl

/-- The reference's second result is the head over the 478 noun classes. -/
theorem noun_eq (x0 : (⟨S16384x768, .f32⟩ : BufTy).Contents (Elt Ideal)) (x3 : (⟨S768x478, .f32⟩ : BufTy).Contents (Elt Ideal))
    (x4 : (⟨S478, .f32⟩ : BufTy).Contents (Elt Ideal)) (x6 : (⟨S478, .i1⟩ : BufTy).Contents (Elt Ideal)) :
    val_main_v11 (F := Ideal) x0 x3 x4 x6 = head 478 x0 x3 x4 x6 maskVal := by
  funext i
  obtain ⟨r, p, rfl⟩ : ∃ (r : Fin 16384) (p : Fin 478), i = ix2 r p := ⟨i 0, i 1, eq_ix2 i⟩
  have e6 : idx_main_v10 (idx_main_call1_v1 (ix2 r p)) = ix1 p := funext fun a => match a with
    | ⟨0, _⟩ => rfl
  have e4 : idx_main_v5 (idx_main_v6 (ix2 r p)) = ix1 p := funext fun a => match a with
    | ⟨0, _⟩ => rfl
  have el : ∀ k : Fin 768, lidx_main_v4 (ix2 r p) k = ix2 r k := fun k => funext fun a => match a with
    | ⟨0, _⟩ => rfl
    | ⟨1, _⟩ => rfl
  have er : ∀ k : Fin 768, ridx_main_v4 (ix2 r p) k = ix2 k p := fun k => funext fun a => match a with
    | ⟨0, _⟩ => rfl
    | ⟨1, _⟩ => rfl
  rw [val_main_v11_apply, val_main_call1_v1_apply, val_main_v10_apply, val_main_v7_apply, val_main_v4_apply,
    val_main_v6_apply, val_main_v5_apply, val_main_call1_v2_apply, val_main_call1_v0_apply, val_main_cst_0_apply, head_apply,
    e6, e4]
  simp only [el, er]
  rfl

end Cert.ReferenceIdeal.Head

end
-- ==== Proof.lean ====
/-
  A fused verb / noun classifier head with unseen-class masking, against its jnp reference, over the extended reals.

  Both programs take features `X` (16384 × 768), two weight matrices (768 × 115 and 768 × 478), two biases and two
  seen-class masks, and return for each head the array

      head[r, p] = if seen[p] then (∑ₖ X[r, k] · W[k, p]) + b[p] else M,        M the value of the word of -1e12.

  The reference computes it literally (two `dot_general`s, a broadcast add, a select on the broadcast mask).
  The kernel tiles the rows four ways; per tile it forms the TRANSPOSED logits `Wᵀ · Xᵀ` on the matrix unit (operands
  narrowed to bf16, which is the identity on extended reals) and applies the mask as a multiply-add against a packed
  (mask-as-number, bias-or-`M`) operand the host builds beforehand; the host transposes the two outputs back.
  The two agree entry by entry by one law,  l · bit + (bit ? b : M) = (bit ? l + b : M),  which holds for every
  extended real `l` (zero times anything is zero), so the precondition's finiteness is never opened.

  The kernel's and the idealized kernel's frames are the generated ones; the reference's frame is its generated run
  with the results dropped; the idealization ledger is empty.  Written by hand: the stored value at an entry
  (VerbStored, NounStored), the host-built operands at an entry (Entry), the blocks' places (Blocks), each output
  array from its four blocks (VerbArray, NounArray), the transposes back and the law (KernelRun, Law), the reference
  read as the head (RefSide), over the one specification (Spec).
-/
import proofs.«115485_g46634754900585_cont_8to1_c_1152_26_alg».proof.Defs
import proofs.«115485_g46634754900585_cont_8to1_c_1152_26_alg».proof.Proof.Gen.Kernel
import proofs.«115485_g46634754900585_cont_8to1_c_1152_26_alg».proof.Proof.Gen.Kernel.Skeleton
import proofs.«115485_g46634754900585_cont_8to1_c_1152_26_alg».proof.Proof.Gen.Kernel.Launch
import proofs.«115485_g46634754900585_cont_8to1_c_1152_26_alg».proof.Proof.Gen.Kernel.Points
import proofs.«115485_g46634754900585_cont_8to1_c_1152_26_alg».proof.Proof.Gen.Kernel.Frame
import proofs.«115485_g46634754900585_cont_8to1_c_1152_26_alg».proof.Proof.Gen.KernelIdeal
import proofs.«115485_g46634754900585_cont_8to1_c_1152_26_alg».proof.Proof.Gen.KernelIdeal.Skeleton
import proofs.«115485_g46634754900585_cont_8to1_c_1152_26_alg».proof.Proof.Gen.KernelIdeal.Launch
import proofs.«115485_g46634754900585_cont_8to1_c_1152_26_alg».proof.Proof.Gen.KernelIdeal.Points
import proofs.«115485_g46634754900585_cont_8to1_c_1152_26_alg».proof.Proof.Gen.KernelIdeal.Frame
import proofs.«115485_g46634754900585_cont_8to1_c_1152_26_alg».proof.Proof.Gen.ReferenceIdeal
import proofs.«115485_g46634754900585_cont_8to1_c_1152_26_alg».proof.Proof.Gen.ReferenceIdeal.Run
import proofs.«115485_g46634754900585_cont_8to1_c_1152_26_alg».proof.Proof.Gen.ReferenceIdeal.Read
import proofs.«115485_g46634754900585_cont_8to1_c_1152_26_alg».proof.Proof.Gen.Pre_finite_inputs
import proofs.«115485_g46634754900585_cont_8to1_c_1152_26_alg».proof.Proof.KernelRun
import proofs.«115485_g46634754900585_cont_8to1_c_1152_26_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with each result at the masked head of the (agreeing) arguments. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.Head.verb_eq,
      (hagree c).1, (hagree c).2.1, (hagree c).2.2.1, (hagree c).2.2.2.2.2.1]
  · rw [Cert.ReferenceIdeal.Read.val_main_v11_eq, Cert.ReferenceIdeal.Head.noun_eq,
      (hagree c).1, (hagree c).2.2.2.1, (hagree c).2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
